-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x4 : Shape := ⟨2, ![1600000, 4]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  main_v53

def fn_part2 {F : FTy → Type} [FloatOps F] (main_arg8 : FVec F S128x128 .f32) (main_arg9 : FVec F S64x128 .f32) (main_arg10 : FVec F S64 .f32) (main_arg11 : FVec F S64x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S64x128 .f32) (main_arg10 : FVec F S64 .f32) (main_arg11 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : FVec F S1600000x4 .f32) (main_arg2 : IVec S2x1600000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S64x128 .f32) (main_arg10 : FVec F S64 .f32) (main_arg11 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x4 .f32 := Host.absf main_arg1
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S1600000x4 : Shape := ⟨2, ![1600000, 4]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 88
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000x4, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S128x64, .f32⟩
  | .hbm, ⟨85, _⟩ => ⟨S128x64, .f32⟩
  | .hbm, ⟨86, _⟩ => ⟨S1x64, .f32⟩
  | .hbm, ⟨87, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000x4 : Shape := ⟨2, ![1600000, 4]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x4, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S128x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S128x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S128x64, .f32⟩
  | .hbm, ⟨104, _⟩ => ⟨S100000x64, .f32⟩
  | .hbm, ⟨105, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_c_8 : Ref sig .tc := ⟨.hbm, 82, rfl⟩
abbrev main_v56 : Ref sig .tc := ⟨.hbm, 83, rfl⟩
abbrev main_v57 : Ref sig .tc := ⟨.hbm, 84, rfl⟩
abbrev main_c_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Layer.lean ====
/-
  One layer's dense stage. For a row block or the whole node array alike, with `A` the degree-normalised
  neighbour sums, `H` the nodes' own features, `Wl`, `Wr` the two weight matrices already transposed to
  `[K, N]` and `b` the bias as one row, the stage's entry `(p, q)` is

      (∑ₖ A(p,k)·Wl(k,q) + ∑ₖ H(p,k)·Wr(k,q)) + b(0,q)

  on the extended reals. The device body adds the two products first and the bias last; the host adds the
  bias to the first product and the second product last. Addition of extended reals is commutative and
  associative, so both are this one number; no finiteness is needed. A change of float format is the identity
  at the ideal values, so the body's narrowing of its operands before the products does not show.
-/
import Idealize.ShloMosaic.Lib.ValueIdx
import Idealize.ShloMosaic.Lib.ValueLayout
import Idealize.ShloMosaic.Lib.Pipeline.Value
import Idealize.ShloMosaic.PureOps.Ideal.Laws
import proofs.«175655_j44272522887304_1_alg».proof.Proof.LibPlainDot

noncomputable section

namespace Cert.Sage

open Idealize.ShloMosaic Idealize.ShloMosaic.ValueIdx

variable {M K N : ℕ}

/-- The dense stage's entry `(p, q)`. -/
def denseAt (A H : FVec Ideal ⟨2, ![M, K]⟩ .f32) (Wl Wr : FVec Ideal ⟨2, ![K, N]⟩ .f32) (b : FVec Ideal ⟨2, ![1, N]⟩ .f32)
    (p : Fin M) (q : Fin N) : Ideal .f32 :=
  (∑ k : Fin K, A (ix2 p k) * Wl (ix2 k q) + ∑ k : Fin K, H (ix2 p k) * Wr (ix2 k q)) + b (ix2 (0 : Fin 1) q)

/-- The dense stage as an array. -/
def dense (A H : FVec Ideal ⟨2, ![M, K]⟩ .f32) (Wl Wr : FVec Ideal ⟨2, ![K, N]⟩ .f32) (b : FVec Ideal ⟨2, ![1, N]⟩ .f32) :
    FVec Ideal ⟨2, ![M, N]⟩ .f32 := fun i => denseAt A H Wl Wr b (i 0) (i 1)

/-- The dense stage followed by the rectifier: every entry's maximum with zero. -/
def denseRelu (A H : FVec Ideal ⟨2, ![M, K]⟩ .f32) (Wl Wr : FVec Ideal ⟨2, ![K, N]⟩ .f32) (b : FVec Ideal ⟨2, ![1, N]⟩ .f32) :
    FVec Ideal ⟨2, ![M, N]⟩ .f32 := fun i => max (denseAt A H Wl Wr b (i 0) (i 1)) (Ideal.ofBits .f32 0x00000000#32)

theorem dense_apply (A H : FVec Ideal ⟨2, ![M, K]⟩ .f32) (Wl Wr : FVec Ideal ⟨2, ![K, N]⟩ .f32) (b : FVec Ideal ⟨2, ![1, N]⟩ .f32)
    (p : Fin M) (q : Fin N) : dense A H Wl Wr b (ix2 p q) = denseAt A H Wl Wr b p q := rfl

theorem denseRelu_apply (A H : FVec Ideal ⟨2, ![M, K]⟩ .f32) (Wl Wr : FVec Ideal ⟨2, ![K, N]⟩ .f32) (b : FVec Ideal ⟨2, ![1, N]⟩ .f32)
    (p : Fin M) (q : Fin N) :
    denseRelu A H Wl Wr b (ix2 p q) = max (denseAt A H Wl Wr b p q) (Ideal.ofBits .f32 0x00000000#32) := rfl

/-- The device body's sum — the two products into zero accumulators of the narrowed operands, added, then the bias
    row broadcast over the rows — at `(p, q)`. -/
theorem body_sum_apply (d : DotDims ⟨2, ![M, K]⟩ ⟨2, ![K, N]⟩ ⟨2, ![M, N]⟩) (hd : d = DotDims.plain M K N)
    (x0 x1 : FVec Ideal ⟨2, ![M, K]⟩ .f32) (x2 x4 : FVec Ideal ⟨2, ![K, N]⟩ .f32) (x3 : FVec Ideal ⟨2, ![1, N]⟩ .f32)
    (hlt : FTy.bf16.bits < FTy.f32.bits) (hb : (⟨2, ![1, N]⟩ : Shape).Broadcasts ⟨2, ![M, N]⟩) (p : Fin M) (q : Fin N) :
    addf (addf (matmul d none (truncf .bf16 x0 hlt) (truncf .bf16 x2 hlt) (constant ⟨2, ![M, N]⟩ .f32 0x00000000#32))
        (matmul d none (truncf .bf16 x1 hlt) (truncf .bf16 x4 hlt) (constant ⟨2, ![M, N]⟩ .f32 0x00000000#32)))
      (broadcastTo ⟨2, ![M, N]⟩ x3 hb) (ix2 p q) = denseAt x0 x1 x2 x4 x3 p q := by
  rw [addf_apply, addf_apply, Cert.PlainDot.matmul_zero_apply d hd, Cert.PlainDot.matmul_zero_apply d hd,
    broadcastTo_1b_ab_apply]
  rfl

/-- The scalar zero spread over an array reads zero everywhere. -/
theorem zeros_apply {t : Shape} (h : (⟨0, ![]⟩ : Shape).BroadcastsInDim t (![] : Fin 0 → Fin t.rank)) (j : t.Idx) :
    broadcastInDim t ![] h (constant (F := Ideal) ⟨0, ![]⟩ .f32 0x00000000#32) j = Ideal.ofBits .f32 0x00000000#32 :=
  (broadcastInDim_apply (![] : Fin 0 → Fin t.rank) h _ j ix0 (fun a => a.elim0)).trans rfl

/-- The bias vector made a row and spread over the rows reads, at `(p, q)`, the vector at `q`; so does the vector
    recast as one row, read at `(0, q)`. -/
theorem bias_apply (b1 : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b1) (ix2 p q)
      = shapeCast ⟨2, ![1, N]⟩ b1 hc (ix2 (0 : Fin 1) q) := by
  rw [shapeCast_a_1a_apply]
  refine (broadcastInDim_apply (![0, 1] : Fin 2 → Fin 2) h2 _ (ix2 p q) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply (![1] : Fin 1 → Fin 2) h1 b1 (ix2 (0 : Fin 1) q) (ix1 q) fun a => ?_
    match a with
    | ⟨0, _⟩ =>
      show q.val = if N = 1 then 0 else q.val
      split
      · have := q.isLt; omega
      · rfl

/-- The host's sum — the first product, the bias spread over the rows added to it, then the second product — at
    `(p, q)`: the dense stage with the bias vector as one row. -/
theorem host_sum_apply (d : DotDims ⟨2, ![M, K]⟩ ⟨2, ![K, N]⟩ ⟨2, ![M, N]⟩) (hd : d = DotDims.plain M K N)
    (A H : FVec Ideal ⟨2, ![M, K]⟩ .f32) (Wl Wr : FVec Ideal ⟨2, ![K, N]⟩ .f32) (b1 : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) (p : Fin M) (q : Fin N) :
    addf (addf (Host.dotGeneral d none A Wl) (broadcastInDim ⟨2, ![M, N]⟩ ![0, 1] h2 (broadcastInDim ⟨2, ![1, N]⟩ ![1] h1 b1)))
      (Host.dotGeneral d none H Wr) (ix2 p q) = denseAt A H Wl Wr (shapeCast ⟨2, ![1, N]⟩ b1 hc) p q := by
  rw [addf_apply, addf_apply, Cert.PlainDot.dotGeneral_apply d hd, Cert.PlainDot.dotGeneral_apply d hd,
    bias_apply b1 h1 h2 hc]
  exact add_right_comm _ _ _

/-- The host's layer without the rectifier is the dense stage. -/
theorem host_layer (d : DotDims ⟨2, ![M, K]⟩ ⟨2, ![K, N]⟩ ⟨2, ![M, N]⟩) (hd : d = DotDims.plain M K N)
    (A H : FVec Ideal ⟨2, ![M, K]⟩ .f32) (Wl Wr : FVec Ideal ⟨2, ![K, N]⟩ .f32) (b1 : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf (addf (Host.dotGeneral d none A Wl) (broadcastInDim ⟨2, ![M, N]⟩ ![0, 1] h2 (broadcastInDim ⟨2, ![1, N]⟩ ![1] h1 b1)))
      (Host.dotGeneral d none H Wr) = dense A H Wl Wr (shapeCast ⟨2, ![1, N]⟩ b1 hc) := by
  funext i
  rw [eq_ix2 i]
  exact host_sum_apply d hd A H Wl Wr b1 h1 h2 hc (i 0) (i 1)

/-- The host's layer with the rectifier is the dense stage followed by the rectifier. -/
theorem host_layer_relu (d : DotDims ⟨2, ![M, K]⟩ ⟨2, ![K, N]⟩ ⟨2, ![M, N]⟩) (hd : d = DotDims.plain M K N)
    (A H : FVec Ideal ⟨2, ![M, K]⟩ .f32) (Wl Wr : FVec Ideal ⟨2, ![K, N]⟩ .f32) (b1 : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩)
    (h0 : (⟨0, ![]⟩ : Shape).BroadcastsInDim ⟨2, ![M, N]⟩ (![] : Fin 0 → Fin 2)) :
    maximumf (addf (addf (Host.dotGeneral d none A Wl) (broadcastInDim ⟨2, ![M, N]⟩ ![0, 1] h2 (broadcastInDim ⟨2, ![1, N]⟩ ![1] h1 b1)))
        (Host.dotGeneral d none H Wr))
      (broadcastInDim ⟨2, ![M, N]⟩ ![] h0 (constant (F := Ideal) ⟨0, ![]⟩ .f32 0x00000000#32))
      = denseRelu A H Wl Wr (shapeCast ⟨2, ![1, N]⟩ b1 hc) := by
  funext i
  rw [eq_ix2 i]
  refine (maximumf_apply _ _ _).trans ?_
  exact congrArg₂ max (host_sum_apply d hd A H Wl Wr b1 h1 h2 hc (i 0) (i 1)) (zeros_apply h0 _)

end Cert.Sage

end
-- ==== Proof.Chain.lean ====
/-
  The program's result as one function of its arguments, layer by layer.

  Write `e` for the edge list, `src e` and `dst e` for its two rows, `degInv e` for the reciprocal of each node's
  in-degree (the degree taken as at least one), and `neighbourMean e h` for the array whose row `i` is the sum of
  the rows `h[src]` over the edges whose target is `i`, scaled by `degInv e` at `i`. These are host operations that
  both programs apply, the same ones, before each layer's dense stage; nothing here looks inside them. A hidden state
  is the rectified dense stage (Layer) of the previous state's neighbour mean and the previous state itself, with that
  layer's weight matrices transposed and its bias as one row; the result is the last layer's dense stage, unrectified.
-/
import proofs.«175655_j44272522887304_1_alg».proof.Proof.Gen.KernelIdeal
import proofs.«175655_j44272522887304_1_alg».proof.Proof.Layer

noncomputable section

namespace Cert.KernelIdeal.Chain

open Idealize.ShloMosaic
open Cert.KernelIdeal Cert.KernelIdeal.Gen Cert.Sage

/-- Each edge's source node. -/
def src (e : IVec S2x1600000 32) : IVec S1600000 32 :=
  shapeCast S1600000 (extractStridedSlice S1x1600000 ![0, 0] e slices_S2x1600000_S1x1600000_0_0) shapeCasts_S1x1600000_S1600000

/-- Each edge's target node. -/
def dst (e : IVec S2x1600000 32) : IVec S1600000 32 :=
  shapeCast S1600000 (extractStridedSlice S1x1600000 ![1, 0] e slices_S2x1600000_S1x1600000_1_0) shapeCasts_S1x1600000_S1600000

/-- One over each node's in-degree, the degree taken as at least one. -/
def degInv (e : IVec S2x1600000 32) : FVec Ideal S100000 .f32 :=
  Host.divf (broadcastInDim S100000 ![] bcast_S_S100000 (constant (F := Ideal) S_ .f32 0x3F800000#32))
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (dst e))
        (broadcastInDim S1600000 ![] bcast_S_S1600000 (constant (F := Ideal) S_ .f32 0x3F800000#32)))
      (broadcastInDim S100000 ![] bcast_S_S100000 (constant (F := Ideal) S_ .f32 0x3F800000#32)))

/-- The mean of `h`'s rows over each node's in-neighbours: the rows `h[src]` summed into their edges' targets, scaled
    by the reciprocal in-degree. -/
def neighbourMean (e : IVec S2x1600000 32) (h : FVec Ideal S100000x128 .f32) : FVec Ideal S100000x128 .f32 :=
  mulf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dst e))
      (Host.gather gather_S100000x128_S1600000x1_S1600000x128_1_0_n_n_0_1_1128 h
        (broadcastInDim S1600000x1 ![0] bcast_S1600000_S1600000x1_0
          (select (cmpi .slt (src e) (broadcastInDim S1600000 ![] bcast_S_S1600000 (constantI S_ 32 0#32)))
            (addi (src e) (broadcastInDim S1600000 ![] bcast_S_S1600000 (constantI S_ 32 100000#32)))
            (src e)))))
    (broadcastInDim S100000x128 ![0, 1] bcast_S100000x1_S100000x128_0_1
      (broadcastInDim S100000x1 ![0] bcast_S100000_S100000x1_0 (degInv e)))

/-- A `128 × 128` weight matrix transposed. -/
def tr128 (w : FVec Ideal S128x128 .f32) : FVec Ideal S128x128 .f32 := transpose S128x128 [1, 0] w transposes_S128x128_S128x128_1_0

/-- The last layer's `64 × 128` weight matrix transposed. -/
def tr64 (w : FVec Ideal S64x128 .f32) : FVec Ideal S128x64 .f32 := transpose S128x64 [1, 0] w transposes_S64x128_S128x64_1_0

/-- A bias vector as one row. -/
def row128 (b : FVec Ideal S128 .f32) : FVec Ideal S1x128 .f32 := shapeCast S1x128 b shapeCasts_S128_S1x128

def row64 (b : FVec Ideal S64 .f32) : FVec Ideal S1x64 .f32 := shapeCast S1x64 b shapeCasts_S64_S1x64

/-- The first hidden state. -/
def hidden1 (e : IVec S2x1600000 32) (x : FVec Ideal S100000x128 .f32)
    (wl0 : FVec Ideal S128x128 .f32) (b0 : FVec Ideal S128 .f32) (wr0 : FVec Ideal S128x128 .f32) : FVec Ideal S100000x128 .f32 :=
  denseRelu (neighbourMean e x) x (tr128 wl0) (tr128 wr0) (row128 b0)

/-- The second hidden state. -/
def hidden2 (e : IVec S2x1600000 32) (x : FVec Ideal S100000x128 .f32)
    (wl0 : FVec Ideal S128x128 .f32) (b0 : FVec Ideal S128 .f32) (wr0 : FVec Ideal S128x128 .f32)
    (wl1 : FVec Ideal S128x128 .f32) (b1 : FVec Ideal S128 .f32) (wr1 : FVec Ideal S128x128 .f32) : FVec Ideal S100000x128 .f32 :=
  denseRelu (neighbourMean e (hidden1 e x wl0 b0 wr0)) (hidden1 e x wl0 b0 wr0) (tr128 wl1) (tr128 wr1) (row128 b1)

/-- The program's result. -/
def output (e : IVec S2x1600000 32) (x : FVec Ideal S100000x128 .f32)
    (wl0 : FVec Ideal S128x128 .f32) (b0 : FVec Ideal S128 .f32) (wr0 : FVec Ideal S128x128 .f32)
    (wl1 : FVec Ideal S128x128 .f32) (b1 : FVec Ideal S128 .f32) (wr1 : FVec Ideal S128x128 .f32)
    (wl2 : FVec Ideal S64x128 .f32) (b2 : FVec Ideal S64 .f32) (wr2 : FVec Ideal S64x128 .f32) : FVec Ideal S100000x64 .f32 :=
  dense (neighbourMean e (hidden2 e x wl0 b0 wr0 wl1 b1 wr1)) (hidden2 e x wl0 b0 wr0 wl1 b1 wr1) (tr64 wl2) (tr64 wr2) (row64 b2)

end Cert.KernelIdeal.Chain

end
-- ==== Proof.Region0.lean ====
/-
  The first layer's device region, read as a value.

  The region walks the 100000 node rows in 20 blocks of 5000. At grid point `t` it reads rows
  `5000·t … 5000·t + 4999` of the neighbour-sum array and of the feature array, and the two weight matrices and
  the bias row whole, and writes back the same rows of the result. Row `r` of the block and column `q`: the
  body's value is the dense stage of the block's operands at `(r, q)`, its maximum with zero taken; a block's row
  `r` is the array's row `5000·t + r`, and a sum over the 128 columns only ever looks along that one row, so this
  is the dense stage of the WHOLE arrays at `(5000·t + r, q)`. Every row lies in exactly one block (the one
  numbered row / 5000), so after the last point the result array is the rectified dense stage of the arrays the
  region was entered with, entry by entry.
-/
import proofs.«175655_j44272522887304_1_alg».proof.Proof.Gen.KernelIdeal.Frame
import proofs.«175655_j44272522887304_1_alg».proof.Proof.Layer

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at row `p`, column `q` of the block: the dense stage of the loaded blocks there, rectified. -/
theorem stored_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max (denseAt x0 x1 x2 x4 x3 p q) (Ideal.ofBits .f32 0x00000000#32) := by
  unfold k0_pay1
  simp only [shapeCast_self]
  refine (maximumf_apply _ _ _).trans ?_
  exact congrArg₂ max
    (body_sum_apply dot_S5000x128_S128x128_S5000x128_1_0_0_1_n_n rfl x0 x1 x2 x4 x3 _ _ p q) rfl

/-- When the row blocks hold row `r` of the arrays at their row `p`, and the other operands are the whole arrays,
    the stored value at `(p, q)` is the rectified dense stage of the arrays at `(r, q)`. -/
theorem stored_of_rows (A H : FVec Ideal S100000x128 .f32) (Wl Wr : FVec Ideal S128x128 .f32) (b : FVec Ideal S1x128 .f32)
    (x0 x1 : Vec Ideal S5000x128 .f32) (x2 x4 : Vec Ideal S128x128 .f32) (x3 : Vec Ideal S1x128 .f32)
    (p : Fin 5000) (q : Fin 128) (r : Fin 100000)
    (h0 : ∀ k : Fin 128, x0 (ix2 p k) = A (ix2 r k)) (h1 : ∀ k : Fin 128, x1 (ix2 p k) = H (ix2 r k))
    (h2 : x2 = Wl) (h4 : x4 = Wr) (h3 : x3 = b) :
    k0_pay1 (F := Ideal) x0 x1 x2 x4 x3 (ix2 p q) = denseRelu A H Wl Wr b (ix2 r q) := by
  subst h2 h4 h3
  rw [stored_apply, denseRelu_apply]
  unfold denseAt
  simp only [h0, h1]

/-- The block index maps over the grid: the row windows sit at block `t` of the rows, the others at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := lt_of_lt_of_eq t.isLt N_0

/-- Row `p` of the neighbour-sum block at point `t` is row `5000·t + p` of the array. -/
theorem rows0 (c : Dev nD) (t : Fin cfg0.N) (p : Fin 5000) (k : Fin 128) (hr : t.val * 5000 + p.val < 100000) :
    iblk0 V c 0 t (ix2 p k) = V c main_v24 (ix2 (⟨t.val * 5000 + p.val, hr⟩ : Fin 100000) k) := by
  obtain ⟨e0, e1, -⟩ := index_facts t
  show V c main_v24 (((cfg0.win 0).blk t).view.emb (ix2 p k)) = _
  refine congrArg (V c main_v24) ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The same for the feature block. -/
theorem rows1 (c : Dev nD) (t : Fin cfg0.N) (p : Fin 5000) (k : Fin 128) (hr : t.val * 5000 + p.val < 100000) :
    iblk0 V c 1 t (ix2 p k) = V c main_arg0 (ix2 (⟨t.val * 5000 + p.val, hr⟩ : Fin 100000) k) := by
  obtain ⟨-, -, e2, e3, -⟩ := index_facts t
  show V c main_arg0 (((cfg0.win 1).blk t).view.emb (ix2 p k)) = _
  refine congrArg (V c main_arg0) ?_
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first weight matrix's window is the whole matrix at every point. -/
theorem whole2 (c : Dev nD) (t : Fin cfg0.N) : iblk0 V c 2 t = V c main_v25 := by
  obtain ⟨-, -, -, -, e4, e5, -⟩ := index_facts t
  funext y
  show V c main_v25 (((cfg0.win 2).blk t).view.emb y) = V c main_v25 y
  refine congrArg (V c main_v25) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's window is the whole row. -/
theorem whole3 (c : Dev nD) (t : Fin cfg0.N) : iblk0 V c 3 t = V c main_v27 := by
  obtain ⟨-, -, -, -, -, -, e6, e7, -⟩ := index_facts t
  funext y
  show V c main_v27 (((cfg0.win 3).blk t).view.emb y) = V c main_v27 y
  refine congrArg (V c main_v27) ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight matrix's window is the whole matrix. -/
theorem whole4 (c : Dev nD) (t : Fin cfg0.N) : iblk0 V c 4 t = V c main_v26 := by
  obtain ⟨-, -, -, -, -, -, -, -, e8, e9, -⟩ := index_facts t
  funext y
  show V c main_v26 (((cfg0.win 4).blk t).view.emb y) = V c main_v26 y
  refine congrArg (V c main_v26) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Entry `(p, q)` of the result block at point `t` is entry `(5000·t + p, q)` of the result array. -/
theorem out_emb (t : Fin cfg0.N) (p : Fin 5000) (q : Fin 128) (hr : t.val * 5000 + p.val < 100000) :
    ((cfg0.win 5).blk t).view.emb (ix2 p q) = ix2 (⟨t.val * 5000 + p.val, hr⟩ : Fin 100000) q := by
  obtain ⟨-, -, -, -, -, -, -, -, -, -, e10, e11⟩ := index_facts t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point `t` writes back is block `t` of the rectified dense stage of the entry arrays. -/
theorem written (c : Dev nD) (t : Fin cfg0.N) :
    (dat0 V c).flushed 5 t = ((cfg0.win 5).blk t).view.read (Elt Ideal)
      (denseRelu (V c main_v24) (V c main_arg0) (V c main_v25) (V c main_v26) (V c main_v27)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  have ht := point_lt t
  have hp := p.isLt
  have hr : t.val * 5000 + p.val < 100000 := by omega
  refine (stored_of_rows (V c main_v24) (V c main_arg0) (V c main_v25) (V c main_v26) (V c main_v27)
    (iblk0 V c 0 t) (iblk0 V c 1 t) (iblk0 V c 2 t) (iblk0 V c 4 t) (iblk0 V c 3 t) p q ⟨t.val * 5000 + p.val, hr⟩
    (fun k => rows0 V c t p k hr) (fun k => rows1 V c t p k hr) (whole2 V c t) (whole4 V c t) (whole3 V c t)).trans ?_
  exact (congrArg (denseRelu (V c main_v24) (V c main_arg0) (V c main_v25) (V c main_v26) (V c main_v27))
    (out_emb t p q hr)).symm

/-- An index of the result array is in point `t`'s block iff its row is in that block's range. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Every entry of the result array is written: row `r` by the point numbered `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_5 _, ?_⟩
  obtain ⟨-, -, -, -, -, -, -, -, -, -, e10, e11⟩ := index_facts ⟨(i 0).val / 5000, hN⟩
  rw [mem_block]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    rw [e10]
    show (i 0).val / 5000 * 5000 ≤ (i 0).val ∧ (i 0).val < (i 0).val / 5000 * 5000 + 5000
    omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    rw [e11]
    omega

/-- After the region the result array is the rectified dense stage of the arrays the region was entered with. -/
theorem result (c : Dev nD) :
    (dat0 V c).arrAt 5 cfg0.N
      = denseRelu (V c main_v24) (V c main_arg0) (V c main_v25) (V c main_v26) (V c main_v27) :=
  (dat0 V c).arrAt_eq_of_cover 5 _ (fun t _ => written V c t) covered

end Cert.KernelIdeal.Region0

end
-- ==== Proof.Region1.lean ====
/-
  The second layer's device region, read as a value.

  As in the first layer the region walks the 100000 node rows in 20 blocks of 5000; what it reads are the
  neighbour sums of the first layer's output and that output itself, with the second layer's two weight matrices
  and bias row whole. Row `r` of block `t` is row `5000·t + r` of the arrays, the contraction runs along that
  one row only, so the body's value at `(r, q)` is the rectified dense stage of the whole arrays at
  `(5000·t + r, q)`; the blocks tile the rows, so the result array after the region is that stage entry by entry.
-/
import proofs.«175655_j44272522887304_1_alg».proof.Proof.Gen.KernelIdeal.Frame
import proofs.«175655_j44272522887304_1_alg».proof.Proof.Layer

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at row `p`, column `q` of the block: the dense stage of the loaded blocks there, rectified. -/
theorem stored_apply (x0 x1 : Vec Ideal S5000x128 .f32) (x2 x4 : Vec Ideal S128x128 .f32) (x3 : Vec Ideal S1x128 .f32)
    (p : Fin 5000) (q : Fin 128) :
    k1_pay1 (F := Ideal) x0 x1 x2 x4 x3 (ix2 p q)
      = max (denseAt x0 x1 x2 x4 x3 p q) (Ideal.ofBits .f32 0x00000000#32) := by
  unfold k1_pay1
  simp only [shapeCast_self]
  refine (maximumf_apply _ _ _).trans ?_
  exact congrArg₂ max
    (body_sum_apply dot_S5000x128_S128x128_S5000x128_1_0_0_1_n_n rfl x0 x1 x2 x4 x3 _ _ p q) rfl

/-- When the row blocks hold row `r` of the arrays at their row `p`, and the other operands are the whole arrays,
    the stored value at `(p, q)` is the rectified dense stage of the arrays at `(r, q)`. -/
theorem stored_of_rows (A H : FVec Ideal S100000x128 .f32) (Wl Wr : FVec Ideal S128x128 .f32) (b : FVec Ideal S1x128 .f32)
    (x0 x1 : Vec Ideal S5000x128 .f32) (x2 x4 : Vec Ideal S128x128 .f32) (x3 : Vec Ideal S1x128 .f32)
    (p : Fin 5000) (q : Fin 128) (r : Fin 100000)
    (h0 : ∀ k : Fin 128, x0 (ix2 p k) = A (ix2 r k)) (h1 : ∀ k : Fin 128, x1 (ix2 p k) = H (ix2 r k))
    (h2 : x2 = Wl) (h4 : x4 = Wr) (h3 : x3 = b) :
    k1_pay1 (F := Ideal) x0 x1 x2 x4 x3 (ix2 p q) = denseRelu A H Wl Wr b (ix2 r q) := by
  subst h2 h4 h3
  rw [stored_apply, denseRelu_apply]
  unfold denseAt
  simp only [h0, h1]

/-- The block index maps over the grid: the row windows sit at block `t` of the rows, the others at the origin. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := lt_of_lt_of_eq t.isLt N_1

/-- Row `p` of the neighbour-sum block at point `t` is row `5000·t + p` of the array. -/
theorem rows0 (c : Dev nD) (t : Fin cfg1.N) (p : Fin 5000) (k : Fin 128) (hr : t.val * 5000 + p.val < 100000) :
    iblk1 V c 0 t (ix2 p k) = V c main_v41 (ix2 (⟨t.val * 5000 + p.val, hr⟩ : Fin 100000) k) := by
  obtain ⟨e0, e1, -⟩ := index_facts t
  show V c main_v41 (((cfg1.win 0).blk t).view.emb (ix2 p k)) = _
  refine congrArg (V c main_v41) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The same for the block of the first layer's output. -/
theorem rows1 (c : Dev nD) (t : Fin cfg1.N) (p : Fin 5000) (k : Fin 128) (hr : t.val * 5000 + p.val < 100000) :
    iblk1 V c 1 t (ix2 p k) = V c main_v28 (ix2 (⟨t.val * 5000 + p.val, hr⟩ : Fin 100000) k) := by
  obtain ⟨-, -, e2, e3, -⟩ := index_facts t
  show V c main_v28 (((cfg1.win 1).blk t).view.emb (ix2 p k)) = _
  refine congrArg (V c main_v28) ?_
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight matrix's window is the whole matrix at every point. -/
theorem whole2 (c : Dev nD) (t : Fin cfg1.N) : iblk1 V c 2 t = V c main_v42 := by
  obtain ⟨-, -, -, -, e4, e5, -⟩ := index_facts t
  funext y
  show V c main_v42 (((cfg1.win 2).blk t).view.emb y) = V c main_v42 y
  refine congrArg (V c main_v42) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's window is the whole row. -/
theorem whole3 (c : Dev nD) (t : Fin cfg1.N) : iblk1 V c 3 t = V c main_v44 := by
  obtain ⟨-, -, -, -, -, -, e6, e7, -⟩ := index_facts t
  funext y
  show V c main_v44 (((cfg1.win 3).blk t).view.emb y) = V c main_v44 y
  refine congrArg (V c main_v44) ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix's window is the whole matrix. -/
theorem whole4 (c : Dev nD) (t : Fin cfg1.N) : iblk1 V c 4 t = V c main_v43 := by
  obtain ⟨-, -, -, -, -, -, -, -, e8, e9, -⟩ := index_facts t
  funext y
  show V c main_v43 (((cfg1.win 4).blk t).view.emb y) = V c main_v43 y
  refine congrArg (V c main_v43) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Entry `(p, q)` of the result block at point `t` is entry `(5000·t + p, q)` of the result array. -/
theorem out_emb (t : Fin cfg1.N) (p : Fin 5000) (q : Fin 128) (hr : t.val * 5000 + p.val < 100000) :
    ((cfg1.win 5).blk t).view.emb (ix2 p q) = ix2 (⟨t.val * 5000 + p.val, hr⟩ : Fin 100000) q := by
  obtain ⟨-, -, -, -, -, -, -, -, -, -, e10, e11⟩ := index_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point `t` writes back is block `t` of the rectified dense stage of the entry arrays. -/
theorem written (c : Dev nD) (t : Fin cfg1.N) :
    (dat1 V c).flushed 5 t = ((cfg1.win 5).blk t).view.read (Elt Ideal)
      (denseRelu (V c main_v41) (V c main_v28) (V c main_v42) (V c main_v43) (V c main_v44)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  have ht := point_lt t
  have hp := p.isLt
  have hr : t.val * 5000 + p.val < 100000 := by omega
  refine (stored_of_rows (V c main_v41) (V c main_v28) (V c main_v42) (V c main_v43) (V c main_v44)
    (iblk1 V c 0 t) (iblk1 V c 1 t) (iblk1 V c 2 t) (iblk1 V c 4 t) (iblk1 V c 3 t) p q ⟨t.val * 5000 + p.val, hr⟩
    (fun k => rows0 V c t p k hr) (fun k => rows1 V c t p k hr) (whole2 V c t) (whole4 V c t) (whole3 V c t)).trans ?_
  exact (congrArg (denseRelu (V c main_v41) (V c main_v28) (V c main_v42) (V c main_v43) (V c main_v44))
    (out_emb t p q hr)).symm

/-- An index of the result array is in point `t`'s block iff its row is in that block's range. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Every entry of the result array is written: row `r` by the point numbered `r / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := by rw [show cfg1.N = 20 from N_1]; omega
  refine ⟨⟨(i 0).val / 5000, hN⟩, flush1_5 _, ?_⟩
  obtain ⟨-, -, -, -, -, -, -, -, -, -, e10, e11⟩ := index_facts ⟨(i 0).val / 5000, hN⟩
  rw [mem_block]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [e10]
    show (i 0).val / 5000 * 5000 ≤ (i 0).val ∧ (i 0).val < (i 0).val / 5000 * 5000 + 5000
    omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    rw [e11]
    omega

/-- After the region the result array is the rectified dense stage of the arrays the region was entered with. -/
theorem result (c : Dev nD) :
    (dat1 V c).arrAt 5 cfg1.N
      = denseRelu (V c main_v41) (V c main_v28) (V c main_v42) (V c main_v43) (V c main_v44) :=
  (dat1 V c).arrAt_eq_of_cover 5 _ (fun t _ => written V c t) covered

end Cert.KernelIdeal.Region1

end
-- ==== Proof.Region2.lean ====
/-
  The last layer's device region, read as a value.

  The output has 64 columns and there is no rectifier. The region walks the 100000 node rows in 20 blocks of
  5000, reading the neighbour sums of the second layer's output and that output itself by row blocks, and the
  last layer's two `128 × 64` weight matrices and its bias row whole. Row `r` of block `t` is row
  `5000·t + r` of the arrays and the contraction runs along that one row, so the body's value at `(r, q)` is the
  dense stage of the whole arrays at `(5000·t + r, q)`; the blocks tile the rows, so the result array after the
  region is the dense stage entry by entry.
-/
import proofs.«175655_j44272522887304_1_alg».proof.Proof.Gen.KernelIdeal.Frame
import proofs.«175655_j44272522887304_1_alg».proof.Proof.Layer

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at row `p`, column `q` of the block: the dense stage of the loaded blocks there. -/
theorem stored_apply (x0 x1 : Vec Ideal S5000x128 .f32) (x2 x4 : Vec Ideal S128x64 .f32) (x3 : Vec Ideal S1x64 .f32)
    (p : Fin 5000) (q : Fin 64) :
    k2_pay1 (F := Ideal) x0 x1 x2 x4 x3 (ix2 p q) = denseAt x0 x1 x2 x4 x3 p q := by
  unfold k2_pay1
  simp only [shapeCast_self]
  exact body_sum_apply dot_S5000x128_S128x64_S5000x64_1_0_0_1_n_n rfl x0 x1 x2 x4 x3 _ _ p q

/-- When the row blocks hold row `r` of the arrays at their row `p`, and the other operands are the whole arrays,
    the stored value at `(p, q)` is the dense stage of the arrays at `(r, q)`. -/
theorem stored_of_rows (A H : FVec Ideal S100000x128 .f32) (Wl Wr : FVec Ideal S128x64 .f32) (b : FVec Ideal S1x64 .f32)
    (x0 x1 : Vec Ideal S5000x128 .f32) (x2 x4 : Vec Ideal S128x64 .f32) (x3 : Vec Ideal S1x64 .f32)
    (p : Fin 5000) (q : Fin 64) (r : Fin 100000)
    (h0 : ∀ k : Fin 128, x0 (ix2 p k) = A (ix2 r k)) (h1 : ∀ k : Fin 128, x1 (ix2 p k) = H (ix2 r k))
    (h2 : x2 = Wl) (h4 : x4 = Wr) (h3 : x3 = b) :
    k2_pay1 (F := Ideal) x0 x1 x2 x4 x3 (ix2 p q) = dense A H Wl Wr b (ix2 r q) := by
  subst h2 h4 h3
  rw [stored_apply, dense_apply]
  unfold denseAt
  simp only [h0, h1]

/-- The block index maps over the grid: the row windows sit at block `t` of the rows, the others at the origin. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := lt_of_lt_of_eq t.isLt N_2

/-- Row `p` of the neighbour-sum block at point `t` is row `5000·t + p` of the array. -/
theorem rows0 (c : Dev nD) (t : Fin cfg2.N) (p : Fin 5000) (k : Fin 128) (hr : t.val * 5000 + p.val < 100000) :
    iblk2 V c 0 t (ix2 p k) = V c main_v58 (ix2 (⟨t.val * 5000 + p.val, hr⟩ : Fin 100000) k) := by
  obtain ⟨e0, e1, -⟩ := index_facts t
  show V c main_v58 (((cfg2.win 0).blk t).view.emb (ix2 p k)) = _
  refine congrArg (V c main_v58) ?_
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- The same for the block of the second layer's output. -/
theorem rows1 (c : Dev nD) (t : Fin cfg2.N) (p : Fin 5000) (k : Fin 128) (hr : t.val * 5000 + p.val < 100000) :
    iblk2 V c 1 t (ix2 p k) = V c main_v45 (ix2 (⟨t.val * 5000 + p.val, hr⟩ : Fin 100000) k) := by
  obtain ⟨-, -, e2, e3, -⟩ := index_facts t
  show V c main_v45 (((cfg2.win 1).blk t).view.emb (ix2 p k)) = _
  refine congrArg (V c main_v45) ?_
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

/-- The first weight matrix's window is the whole matrix at every point. -/
theorem whole2 (c : Dev nD) (t : Fin cfg2.N) : iblk2 V c 2 t = V c main_v59 := by
  obtain ⟨-, -, -, -, e4, e5, -⟩ := index_facts t
  funext y
  show V c main_v59 (((cfg2.win 2).blk t).view.emb y) = V c main_v59 y
  refine congrArg (V c main_v59) ?_
  funext a; apply Fin.ext
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- The bias row's window is the whole row. -/
theorem whole3 (c : Dev nD) (t : Fin cfg2.N) : iblk2 V c 3 t = V c main_v61 := by
  obtain ⟨-, -, -, -, -, -, e6, e7, -⟩ := index_facts t
  funext y
  show V c main_v61 (((cfg2.win 3).blk t).view.emb y) = V c main_v61 y
  refine congrArg (V c main_v61) ?_
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The second weight matrix's window is the whole matrix. -/
theorem whole4 (c : Dev nD) (t : Fin cfg2.N) : iblk2 V c 4 t = V c main_v60 := by
  obtain ⟨-, -, -, -, -, -, -, -, e8, e9, -⟩ := index_facts t
  funext y
  show V c main_v60 (((cfg2.win 4).blk t).view.emb y) = V c main_v60 y
  refine congrArg (V c main_v60) ?_
  funext a; apply Fin.ext
  match a with
  | ⟨0, _⟩ => show win2_4.index t (0 : Fin 2) * 128 + 1 * (y 0).val = (y 0).val; omega
  | ⟨1, _⟩ => show win2_4.index t (1 : Fin 2) * 64 + 1 * (y 1).val = (y 1).val; omega

/-- Entry `(p, q)` of the result block at point `t` is entry `(5000·t + p, q)` of the result array. -/
theorem out_emb (t : Fin cfg2.N) (p : Fin 5000) (q : Fin 64) (hr : t.val * 5000 + p.val < 100000) :
    ((cfg2.win 5).blk t).view.emb (ix2 p q) = ix2 (⟨t.val * 5000 + p.val, hr⟩ : Fin 100000) q := by
  obtain ⟨-, -, -, -, -, -, -, -, -, -, e10, e11⟩ := index_facts t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

/-- What point `t` writes back is block `t` of the dense stage of the entry arrays. -/
theorem written (c : Dev nD) (t : Fin cfg2.N) :
    (dat2 V c).flushed 5 t = ((cfg2.win 5).blk t).view.read (Elt Ideal)
      (dense (V c main_v58) (V c main_v45) (V c main_v59) (V c main_v60) (V c main_v61)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x64) zero_offsets,
    View.ld_unit_zero (S := S1x64) zero_offsets]
  funext j
  obtain ⟨p, q, rfl⟩ : ∃ (p : Fin 5000) (q : Fin 64), j = ix2 p q := ⟨j 0, j 1, eq_ix2 j⟩
  have ht := point_lt t
  have hp := p.isLt
  have hr : t.val * 5000 + p.val < 100000 := by omega
  refine (stored_of_rows (V c main_v58) (V c main_v45) (V c main_v59) (V c main_v60) (V c main_v61)
    (iblk2 V c 0 t) (iblk2 V c 1 t) (iblk2 V c 2 t) (iblk2 V c 4 t) (iblk2 V c 3 t) p q ⟨t.val * 5000 + p.val, hr⟩
    (fun k => rows0 V c t p k hr) (fun k => rows1 V c t p k hr) (whole2 V c t) (whole4 V c t) (whole3 V c t)).trans ?_
  exact (congrArg (dense (V c main_v58) (V c main_v45) (V c main_v59) (V c main_v60) (V c main_v61))
    (out_emb t p q hr)).symm

/-- An index of the result array is in point `t`'s block iff its row is in that block's range. -/
theorem mem_block (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v62).slice (win2_5.rect t)).set ↔ _
  rw [View.set_slice_whole, Rect.mem_set_unit]
  exact Iff.rfl

/-- Every entry of the result array is written: row `r` by the point numbered `r / 5000`. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < cfg2.N := by rw [show cfg2.N = 20 from N_2]; omega
  refine ⟨⟨(i 0).val / 5000, hN⟩, flush2_5 _, ?_⟩
  obtain ⟨-, -, -, -, -, -, -, -, -, -, e10, e11⟩ := index_facts ⟨(i 0).val / 5000, hN⟩
  rw [mem_block]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e10]
    show (i 0).val / 5000 * 5000 ≤ (i 0).val ∧ (i 0).val < (i 0).val / 5000 * 5000 + 5000
    omega
  | ⟨1, _⟩ =>
    show win2_5.index ⟨(i 0).val / 5000, hN⟩ (1 : Fin 2) * 64 ≤ (i 1).val
      ∧ (i 1).val < win2_5.index ⟨(i 0).val / 5000, hN⟩ (1 : Fin 2) * 64 + 64
    rw [e11]
    omega

/-- After the region the result array is the dense stage of the arrays the region was entered with. -/
theorem result (c : Dev nD) :
    (dat2 V c).arrAt 5 cfg2.N
      = dense (V c main_v58) (V c main_v45) (V c main_v59) (V c main_v60) (V c main_v61) :=
  (dat2 V c).arrAt_eq_of_cover 5 _ (fun t _ => written V c t) covered

end Cert.KernelIdeal.Region2

end
-- ==== Proof.Fold.lean ====
/-
  The result buffer after the whole program is the function of Chain: the buffer contents followed from the launch
  to the return.

  The contents change only at six places: three stretches of host operations and three regions. After the first
  stretch the first region's operands hold the features' neighbour mean, the features, and the first layer's weights
  transposed and bias as a row; the region leaves the rectified dense stage of those (Region0): the first hidden
  state. The second stretch reads that state, the two edge rows and the reciprocal degrees — buffers that neither
  the first region nor the second stretch writes, so they still hold what the first stretch left — and leaves the
  second region's operands; the second region leaves the second hidden state (Region1); the third stretch and the
  third region (Region2) leave the result. A buffer a stretch does not write keeps its contents, and a region
  changes its own six arrays only.
-/
import proofs.«175655_j44272522887304_1_alg».proof.Proof.Gen.KernelIdeal.Frame
import proofs.«175655_j44272522887304_1_alg».proof.Proof.Chain
import proofs.«175655_j44272522887304_1_alg».proof.Proof.Region0
import proofs.«175655_j44272522887304_1_alg».proof.Proof.Region1
import proofs.«175655_j44272522887304_1_alg».proof.Proof.Region2
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Chain Cert.Sage

variable (m : (ℓ : Loc nD τ sig) → Buf (Elt Ideal) ℓ) (ρ : Dev nD → PrngReg) (c : Dev nD)

/-! ## After the first host stretch -/

theorem w1_v1 : W1 m ρ c (Proc.devRef .tc main_v1) = src (m ((c.tc : Thread nD τ).loc main_arg2)) := by
  show StableHlo.after hostOps0 (W0 m ρ c) (Proc.devRef .tc main_v1) = _
  after_results_simp
  rfl

theorem w1_v3 : W1 m ρ c (Proc.devRef .tc main_v3) = dst (m ((c.tc : Thread nD τ).loc main_arg2)) := by
  show StableHlo.after hostOps0 (W0 m ρ c) (Proc.devRef .tc main_v3) = _
  after_results_simp
  rfl

theorem w1_v11 : W1 m ρ c (Proc.devRef .tc main_v11) = degInv (m ((c.tc : Thread nD τ).loc main_arg2)) := by
  show StableHlo.after hostOps0 (W0 m ρ c) (Proc.devRef .tc main_v11) = _
  after_results_simp
  rfl

theorem w1_v24 : W1 m ρ c (Proc.devRef .tc main_v24) = neighbourMean (m ((c.tc : Thread nD τ).loc main_arg2)) (m ((c.tc : Thread nD τ).loc main_arg0)) := by
  show StableHlo.after hostOps0 (W0 m ρ c) (Proc.devRef .tc main_v24) = _
  after_results_simp
  rfl

theorem w1_arg0 : W1 m ρ c (Proc.devRef .tc main_arg0) = m ((c.tc : Thread nD τ).loc main_arg0) := by
  show StableHlo.after hostOps0 (W0 m ρ c) (Proc.devRef .tc main_arg0) = _
  after_results_simp

theorem w1_v25 : W1 m ρ c (Proc.devRef .tc main_v25) = tr128 (m ((c.tc : Thread nD τ).loc main_arg3)) := by
  show StableHlo.after hostOps0 (W0 m ρ c) (Proc.devRef .tc main_v25) = _
  after_results_simp
  rfl

theorem w1_v26 : W1 m ρ c (Proc.devRef .tc main_v26) = tr128 (m ((c.tc : Thread nD τ).loc main_arg5)) := by
  show StableHlo.after hostOps0 (W0 m ρ c) (Proc.devRef .tc main_v26) = _
  after_results_simp
  rfl

theorem w1_v27 : W1 m ρ c (Proc.devRef .tc main_v27) = row128 (m ((c.tc : Thread nD τ).loc main_arg4)) := by
  show StableHlo.after hostOps0 (W0 m ρ c) (Proc.devRef .tc main_v27) = _
  after_results_simp
  rfl

theorem w1_arg6 : W1 m ρ c (Proc.devRef .tc main_arg6) = m ((c.tc : Thread nD τ).loc main_arg6) := by
  show StableHlo.after hostOps0 (W0 m ρ c) (Proc.devRef .tc main_arg6) = _
  after_results_simp

theorem w1_arg7 : W1 m ρ c (Proc.devRef .tc main_arg7) = m ((c.tc : Thread nD τ).loc main_arg7) := by
  show StableHlo.after hostOps0 (W0 m ρ c) (Proc.devRef .tc main_arg7) = _
  after_results_simp

theorem w1_arg8 : W1 m ρ c (Proc.devRef .tc main_arg8) = m ((c.tc : Thread nD τ).loc main_arg8) := by
  show StableHlo.after hostOps0 (W0 m ρ c) (Proc.devRef .tc main_arg8) = _
  after_results_simp

theorem w1_arg9 : W1 m ρ c (Proc.devRef .tc main_arg9) = m ((c.tc : Thread nD τ).loc main_arg9) := by
  show StableHlo.after hostOps0 (W0 m ρ c) (Proc.devRef .tc main_arg9) = _
  after_results_simp

theorem w1_arg10 : W1 m ρ c (Proc.devRef .tc main_arg10) = m ((c.tc : Thread nD τ).loc main_arg10) := by
  show StableHlo.after hostOps0 (W0 m ρ c) (Proc.devRef .tc main_arg10) = _
  after_results_simp

theorem w1_arg11 : W1 m ρ c (Proc.devRef .tc main_arg11) = m ((c.tc : Thread nD τ).loc main_arg11) := by
  show StableHlo.after hostOps0 (W0 m ρ c) (Proc.devRef .tc main_arg11) = _
  after_results_simp

/-! ## After the first region -/

/-- The first region leaves the first hidden state in its result buffer. -/
theorem w2_v28 : W2 m ρ c (Proc.devRef .tc main_v28) = hidden1 (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) := by
  refine (W2_arr m ρ c 5).trans ?_
  refine (Region0.result (V1 m ρ) c).trans ?_
  rw [show V1 m ρ c main_v24 = _ from w1_v24 m ρ c, show V1 m ρ c main_arg0 = _ from w1_arg0 m ρ c,
    show V1 m ρ c main_v25 = _ from w1_v25 m ρ c, show V1 m ρ c main_v26 = _ from w1_v26 m ρ c,
    show V1 m ρ c main_v27 = _ from w1_v27 m ρ c]
  rfl

theorem w2_v1 : W2 m ρ c (Proc.devRef .tc main_v1) = src (m ((c.tc : Thread nD τ).loc main_arg2)) :=
  (W2_of_ne m ρ c main_v1 (by decide)).trans (w1_v1 m ρ c)
theorem w2_v3 : W2 m ρ c (Proc.devRef .tc main_v3) = dst (m ((c.tc : Thread nD τ).loc main_arg2)) :=
  (W2_of_ne m ρ c main_v3 (by decide)).trans (w1_v3 m ρ c)
theorem w2_v11 : W2 m ρ c (Proc.devRef .tc main_v11) = degInv (m ((c.tc : Thread nD τ).loc main_arg2)) :=
  (W2_of_ne m ρ c main_v11 (by decide)).trans (w1_v11 m ρ c)
theorem w2_arg6 : W2 m ρ c (Proc.devRef .tc main_arg6) = m ((c.tc : Thread nD τ).loc main_arg6) :=
  (W2_of_ne m ρ c main_arg6 (by decide)).trans (w1_arg6 m ρ c)
theorem w2_arg7 : W2 m ρ c (Proc.devRef .tc main_arg7) = m ((c.tc : Thread nD τ).loc main_arg7) :=
  (W2_of_ne m ρ c main_arg7 (by decide)).trans (w1_arg7 m ρ c)
theorem w2_arg8 : W2 m ρ c (Proc.devRef .tc main_arg8) = m ((c.tc : Thread nD τ).loc main_arg8) :=
  (W2_of_ne m ρ c main_arg8 (by decide)).trans (w1_arg8 m ρ c)
theorem w2_arg9 : W2 m ρ c (Proc.devRef .tc main_arg9) = m ((c.tc : Thread nD τ).loc main_arg9) :=
  (W2_of_ne m ρ c main_arg9 (by decide)).trans (w1_arg9 m ρ c)
theorem w2_arg10 : W2 m ρ c (Proc.devRef .tc main_arg10) = m ((c.tc : Thread nD τ).loc main_arg10) :=
  (W2_of_ne m ρ c main_arg10 (by decide)).trans (w1_arg10 m ρ c)
theorem w2_arg11 : W2 m ρ c (Proc.devRef .tc main_arg11) = m ((c.tc : Thread nD τ).loc main_arg11) :=
  (W2_of_ne m ρ c main_arg11 (by decide)).trans (w1_arg11 m ρ c)

/-! ## After the second host stretch -/

theorem w3_v41 : W3 m ρ c (Proc.devRef .tc main_v41) = neighbourMean (m ((c.tc : Thread nD τ).loc main_arg2)) (hidden1 (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5))) := by
  show StableHlo.after hostOps1 (W2 m ρ c) (Proc.devRef .tc main_v41) = _
  after_results_simp
  rw [w2_v1 m ρ c, w2_v3 m ρ c, w2_v11 m ρ c, w2_v28 m ρ c]
  rfl

theorem w3_v28 : W3 m ρ c (Proc.devRef .tc main_v28) = hidden1 (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) := by
  show StableHlo.after hostOps1 (W2 m ρ c) (Proc.devRef .tc main_v28) = _
  after_results_simp
  exact w2_v28 m ρ c

theorem w3_v42 : W3 m ρ c (Proc.devRef .tc main_v42) = tr128 (m ((c.tc : Thread nD τ).loc main_arg6)) := by
  show StableHlo.after hostOps1 (W2 m ρ c) (Proc.devRef .tc main_v42) = _
  after_results_simp
  rw [w2_arg6 m ρ c]
  rfl

theorem w3_v43 : W3 m ρ c (Proc.devRef .tc main_v43) = tr128 (m ((c.tc : Thread nD τ).loc main_arg8)) := by
  show StableHlo.after hostOps1 (W2 m ρ c) (Proc.devRef .tc main_v43) = _
  after_results_simp
  rw [w2_arg8 m ρ c]
  rfl

theorem w3_v44 : W3 m ρ c (Proc.devRef .tc main_v44) = row128 (m ((c.tc : Thread nD τ).loc main_arg7)) := by
  show StableHlo.after hostOps1 (W2 m ρ c) (Proc.devRef .tc main_v44) = _
  after_results_simp
  rw [w2_arg7 m ρ c]
  rfl

theorem w3_v1 : W3 m ρ c (Proc.devRef .tc main_v1) = src (m ((c.tc : Thread nD τ).loc main_arg2)) := by
  show StableHlo.after hostOps1 (W2 m ρ c) (Proc.devRef .tc main_v1) = _
  after_results_simp
  exact w2_v1 m ρ c

theorem w3_v3 : W3 m ρ c (Proc.devRef .tc main_v3) = dst (m ((c.tc : Thread nD τ).loc main_arg2)) := by
  show StableHlo.after hostOps1 (W2 m ρ c) (Proc.devRef .tc main_v3) = _
  after_results_simp
  exact w2_v3 m ρ c

theorem w3_v11 : W3 m ρ c (Proc.devRef .tc main_v11) = degInv (m ((c.tc : Thread nD τ).loc main_arg2)) := by
  show StableHlo.after hostOps1 (W2 m ρ c) (Proc.devRef .tc main_v11) = _
  after_results_simp
  exact w2_v11 m ρ c

theorem w3_arg9 : W3 m ρ c (Proc.devRef .tc main_arg9) = m ((c.tc : Thread nD τ).loc main_arg9) := by
  show StableHlo.after hostOps1 (W2 m ρ c) (Proc.devRef .tc main_arg9) = _
  after_results_simp
  exact w2_arg9 m ρ c

theorem w3_arg10 : W3 m ρ c (Proc.devRef .tc main_arg10) = m ((c.tc : Thread nD τ).loc main_arg10) := by
  show StableHlo.after hostOps1 (W2 m ρ c) (Proc.devRef .tc main_arg10) = _
  after_results_simp
  exact w2_arg10 m ρ c

theorem w3_arg11 : W3 m ρ c (Proc.devRef .tc main_arg11) = m ((c.tc : Thread nD τ).loc main_arg11) := by
  show StableHlo.after hostOps1 (W2 m ρ c) (Proc.devRef .tc main_arg11) = _
  after_results_simp
  exact w2_arg11 m ρ c

/-! ## After the second region -/

/-- The second region leaves the second hidden state in its result buffer. -/
theorem w4_v45 : W4 m ρ c (Proc.devRef .tc main_v45) = hidden2 (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 5).trans ?_
  refine (Region1.result (V3 m ρ) c).trans ?_
  rw [show V3 m ρ c main_v41 = _ from w3_v41 m ρ c, show V3 m ρ c main_v28 = _ from w3_v28 m ρ c,
    show V3 m ρ c main_v42 = _ from w3_v42 m ρ c, show V3 m ρ c main_v43 = _ from w3_v43 m ρ c,
    show V3 m ρ c main_v44 = _ from w3_v44 m ρ c]
  rfl

theorem w4_v1 : W4 m ρ c (Proc.devRef .tc main_v1) = src (m ((c.tc : Thread nD τ).loc main_arg2)) :=
  (W4_of_ne m ρ c main_v1 (by decide)).trans (w3_v1 m ρ c)
theorem w4_v3 : W4 m ρ c (Proc.devRef .tc main_v3) = dst (m ((c.tc : Thread nD τ).loc main_arg2)) :=
  (W4_of_ne m ρ c main_v3 (by decide)).trans (w3_v3 m ρ c)
theorem w4_v11 : W4 m ρ c (Proc.devRef .tc main_v11) = degInv (m ((c.tc : Thread nD τ).loc main_arg2)) :=
  (W4_of_ne m ρ c main_v11 (by decide)).trans (w3_v11 m ρ c)
theorem w4_arg9 : W4 m ρ c (Proc.devRef .tc main_arg9) = m ((c.tc : Thread nD τ).loc main_arg9) :=
  (W4_of_ne m ρ c main_arg9 (by decide)).trans (w3_arg9 m ρ c)
theorem w4_arg10 : W4 m ρ c (Proc.devRef .tc main_arg10) = m ((c.tc : Thread nD τ).loc main_arg10) :=
  (W4_of_ne m ρ c main_arg10 (by decide)).trans (w3_arg10 m ρ c)
theorem w4_arg11 : W4 m ρ c (Proc.devRef .tc main_arg11) = m ((c.tc : Thread nD τ).loc main_arg11) :=
  (W4_of_ne m ρ c main_arg11 (by decide)).trans (w3_arg11 m ρ c)

/-! ## After the third host stretch -/

theorem w5_v58 : W5 m ρ c (Proc.devRef .tc main_v58) = neighbourMean (m ((c.tc : Thread nD τ).loc main_arg2)) (hidden2 (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show StableHlo.after hostOps2 (W4 m ρ c) (Proc.devRef .tc main_v58) = _
  after_results_simp
  rw [w4_v1 m ρ c, w4_v3 m ρ c, w4_v11 m ρ c, w4_v45 m ρ c]
  rfl

theorem w5_v45 : W5 m ρ c (Proc.devRef .tc main_v45) = hidden2 (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps2 (W4 m ρ c) (Proc.devRef .tc main_v45) = _
  after_results_simp
  exact w4_v45 m ρ c

theorem w5_v59 : W5 m ρ c (Proc.devRef .tc main_v59) = tr64 (m ((c.tc : Thread nD τ).loc main_arg9)) := by
  show StableHlo.after hostOps2 (W4 m ρ c) (Proc.devRef .tc main_v59) = _
  after_results_simp
  rw [w4_arg9 m ρ c]
  rfl

theorem w5_v60 : W5 m ρ c (Proc.devRef .tc main_v60) = tr64 (m ((c.tc : Thread nD τ).loc main_arg11)) := by
  show StableHlo.after hostOps2 (W4 m ρ c) (Proc.devRef .tc main_v60) = _
  after_results_simp
  rw [w4_arg11 m ρ c]
  rfl

theorem w5_v61 : W5 m ρ c (Proc.devRef .tc main_v61) = row64 (m ((c.tc : Thread nD τ).loc main_arg10)) := by
  show StableHlo.after hostOps2 (W4 m ρ c) (Proc.devRef .tc main_v61) = _
  after_results_simp
  rw [w4_arg10 m ρ c]
  rfl

/-! ## After the third region -/

/-- The result buffer at the return: the program's result as Chain writes it, of the arguments as launched. -/
theorem result : W6 m ρ c (Proc.devRef .tc main_v62) = output (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W6_arr m ρ c 5).trans ?_
  refine (Region2.result (V5 m ρ) c).trans ?_
  rw [show V5 m ρ c main_v58 = _ from w5_v58 m ρ c, show V5 m ρ c main_v45 = _ from w5_v45 m ρ c,
    show V5 m ρ c main_v59 = _ from w5_v59 m ρ c, show V5 m ρ c main_v60 = _ from w5_v60 m ρ c,
    show V5 m ρ c main_v61 = _ from w5_v61 m ρ c]
  rfl

end Cert.KernelIdeal.Fold

end
-- ==== Proof.RefValue.lean ====
/-
  The reference's result is the same function of the arguments.

  The reference is host operations only. Its run ends with the result at one closed term of the arguments; read
  from the inside out that term is three layers, each: the previous state's neighbour mean (the same host
  operations as the device program's, here with this program's own dimension records) times the first weight
  matrix transposed, plus the bias spread over the rows, plus the previous state times the second weight matrix
  transposed, and — for the first two layers — the maximum with zero. By Layer that is the (rectified) dense
  stage with the bias as one row: the sums are regrouped, which extended-real addition allows. So the term is the
  function Chain names `output`.
-/
import proofs.«175655_j44272522887304_1_alg».proof.Proof.Gen.ReferenceIdeal.Run
import proofs.«175655_j44272522887304_1_alg».proof.Proof.Chain

set_option maxRecDepth 16384

noncomputable section

namespace Cert.ReferenceIdeal.RefValue

open Idealize.ShloMosaic Idealize.ShloMosaic.TcCoe Idealize.SL.Sem
open Cert.ReferenceIdeal Cert.ReferenceIdeal.Gen Cert.Sage

/-! ## The reference's own spelling of the shared chain and of one layer -/

/-- Each edge's source node. -/
def src (e : IVec S2x1600000 32) : IVec S1600000 32 :=
  shapeCast S1600000 (extractStridedSlice S1x1600000 ![0, 0] e slices_S2x1600000_S1x1600000_0_0) shapeCasts_S1x1600000_S1600000

/-- Each edge's target node. -/
def dst (e : IVec S2x1600000 32) : IVec S1600000 32 :=
  shapeCast S1600000 (extractStridedSlice S1x1600000 ![1, 0] e slices_S2x1600000_S1x1600000_1_0) shapeCasts_S1x1600000_S1600000

/-- One over each node's in-degree, the degree taken as at least one. -/
def degInv (e : IVec S2x1600000 32) : FVec Ideal S100000 .f32 :=
  Host.divf (broadcastInDim S100000 ![] bcast_S_S100000 (constant (F := Ideal) S_ .f32 0x3F800000#32))
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (dst e))
        (broadcastInDim S1600000 ![] bcast_S_S1600000 (constant (F := Ideal) S_ .f32 0x3F800000#32)))
      (broadcastInDim S100000 ![] bcast_S_S100000 (constant (F := Ideal) S_ .f32 0x3F800000#32)))

/-- The mean of `h`'s rows over each node's in-neighbours: the rows `h[src]` summed into their edges' targets, scaled
    by the reciprocal in-degree. -/
def neighbourMean (e : IVec S2x1600000 32) (h : FVec Ideal S100000x128 .f32) : FVec Ideal S100000x128 .f32 :=
  mulf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dst e))
      (Host.gather gather_S100000x128_S1600000x1_S1600000x128_1_0_n_n_0_1_1128 h
        (broadcastInDim S1600000x1 ![0] bcast_S1600000_S1600000x1_0
          (select (cmpi .slt (src e) (broadcastInDim S1600000 ![] bcast_S_S1600000 (constantI S_ 32 0#32)))
            (addi (src e) (broadcastInDim S1600000 ![] bcast_S_S1600000 (constantI S_ 32 100000#32)))
            (src e)))))
    (broadcastInDim S100000x128 ![0, 1] bcast_S100000x1_S100000x128_0_1
      (broadcastInDim S100000x1 ![0] bcast_S100000_S100000x1_0 (degInv e)))

/-- One of the first two layers as the reference computes it. -/
def layerRelu (e : IVec S2x1600000 32) (h : FVec Ideal S100000x128 .f32)
    (wl : FVec Ideal S128x128 .f32) (b : FVec Ideal S128 .f32) (wr : FVec Ideal S128x128 .f32) : FVec Ideal S100000x128 .f32 :=
  maximumf
    (addf
      (addf
        (Host.dotGeneral dot_S100000x128_S128x128_S100000x128_1_0_0_1_n_n none (neighbourMean e h)
          (transpose S128x128 [1, 0] wl transposes_S128x128_S128x128_1_0))
        (broadcastInDim S100000x128 ![0, 1] bcast_S1x128_S100000x128_0_1 (broadcastInDim S1x128 ![1] bcast_S128_S1x128_1 b)))
      (Host.dotGeneral dot_S100000x128_S128x128_S100000x128_1_0_0_1_n_n none h
        (transpose S128x128 [1, 0] wr transposes_S128x128_S128x128_1_0)))
    (broadcastInDim S100000x128 ![] bcast_S_S100000x128 (constant (F := Ideal) S_ .f32 0x00000000#32))

/-- The last layer as the reference computes it. -/
def layerLast (e : IVec S2x1600000 32) (h : FVec Ideal S100000x128 .f32)
    (wl : FVec Ideal S64x128 .f32) (b : FVec Ideal S64 .f32) (wr : FVec Ideal S64x128 .f32) : FVec Ideal S100000x64 .f32 :=
  addf
    (addf
      (Host.dotGeneral dot_S100000x128_S128x64_S100000x64_1_0_0_1_n_n none (neighbourMean e h)
        (transpose S128x64 [1, 0] wl transposes_S64x128_S128x64_1_0))
      (broadcastInDim S100000x64 ![0, 1] bcast_S1x64_S100000x64_0_1 (broadcastInDim S1x64 ![1] bcast_S64_S1x64_1 b)))
    (Host.dotGeneral dot_S100000x128_S128x64_S100000x64_1_0_0_1_n_n none h
      (transpose S128x64 [1, 0] wr transposes_S64x128_S128x64_1_0))

/-! ## The run's term is three such layers -/

variable (m : (ℓ : Loc nD τ sig) → Buf (Elt Ideal) ℓ) (c : Dev nD)

theorem res_layers :
    Value.res_main_v76 (F := Ideal) m c
      = layerLast (m ((c.tc : Thread nD τ).loc main_arg2))
          (layerRelu (m ((c.tc : Thread nD τ).loc main_arg2))
            (layerRelu (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)))
            (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10)) (m ((c.tc : Thread nD τ).loc main_arg11)) := by
  unfold Value.res_main_v76
  rfl

/-! ## Each layer is the dense stage -/

open Cert.KernelIdeal.Chain in
theorem layerRelu_eq (e : IVec S2x1600000 32) (h : FVec Ideal S100000x128 .f32)
    (wl : FVec Ideal S128x128 .f32) (b : FVec Ideal S128 .f32) (wr : FVec Ideal S128x128 .f32) :
    layerRelu e h wl b wr
      = denseRelu (Cert.KernelIdeal.Chain.neighbourMean e h) h (tr128 wl) (tr128 wr) (row128 b) :=
  (host_layer_relu dot_S100000x128_S128x128_S100000x128_1_0_0_1_n_n rfl (neighbourMean e h) h
    (transpose S128x128 [1, 0] wl transposes_S128x128_S128x128_1_0) (transpose S128x128 [1, 0] wr transposes_S128x128_S128x128_1_0)
    b bcast_S128_S1x128_1 bcast_S1x128_S100000x128_0_1 Cert.KernelIdeal.Facts₀.shapeCasts_S128_S1x128 bcast_S_S100000x128).trans rfl

open Cert.KernelIdeal.Chain in
theorem layerLast_eq (e : IVec S2x1600000 32) (h : FVec Ideal S100000x128 .f32)
    (wl : FVec Ideal S64x128 .f32) (b : FVec Ideal S64 .f32) (wr : FVec Ideal S64x128 .f32) :
    layerLast e h wl b wr
      = dense (Cert.KernelIdeal.Chain.neighbourMean e h) h (tr64 wl) (tr64 wr) (row64 b) :=
  (host_layer dot_S100000x128_S128x64_S100000x64_1_0_0_1_n_n rfl (neighbourMean e h) h
    (transpose S128x64 [1, 0] wl transposes_S64x128_S128x64_1_0) (transpose S128x64 [1, 0] wr transposes_S64x128_S128x64_1_0)
    b bcast_S64_S1x64_1 bcast_S1x64_S100000x64_0_1 Cert.KernelIdeal.Facts₀.shapeCasts_S64_S1x64).trans rfl

/-! ## The reference's result is `output` -/

theorem res_output :
    Value.res_main_v76 (F := Ideal) m c
      = Cert.KernelIdeal.Chain.output (m ((c.tc : Thread nD τ).loc main_arg2)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [res_layers, layerLast_eq, layerRelu_eq, layerRelu_eq]
  rfl

end Cert.ReferenceIdeal.RefValue

end
-- ==== Proof.lean ====
/-
  A three-layer graph network, each layer: every node's mean over its in-neighbours of the previous features, times
  one weight matrix, plus a bias, plus the node's own previous features times a second weight matrix; a rectifier
  after the first two layers. The mean is a gather along the edges' sources, a scatter-add into their targets and a
  scaling by the reciprocal in-degree; both programs do it with the same host operations, and nothing in this
  certificate looks inside them. The programs differ in the dense stage: the device program runs it as a region
  over twenty blocks of 5000 node rows, narrowing its operands' format before two products into zero accumulators and
  adding the bias last; the reference runs it on the host, adding the bias between the two products.

  At the ideal values a change of format is the identity, each product's entry is the plain sum over the contracted
  column (LibPlainDot), the two groupings of the three-term sum agree because extended-real addition is commutative
  and associative (Layer), each block row is a row of the whole array and the blocks tile the rows (Region0, Region1,
  Region2), and the buffers a layer reads were left by the layer before (Fold). So both programs end with the result
  at the one function `Chain.output` of the arguments (Fold for the device program, RefValue for the reference). No
  step divides, cancels or distributes, so the inputs' finiteness is never used.

  The three frame claims: the device program's, at either reading, is its launch through the three regions (the
  generated frame); the reference's is its run with the result dropped. The idealization rewrote nothing, so there
  is nothing to preserve.
-/
import proofs.«175655_j44272522887304_1_alg».proof.Defs
import proofs.«175655_j44272522887304_1_alg».proof.Proof.Gen.Kernel
import proofs.«175655_j44272522887304_1_alg».proof.Proof.Gen.Kernel.Skeleton
import proofs.«175655_j44272522887304_1_alg».proof.Proof.Gen.Kernel.Launch
import proofs.«175655_j44272522887304_1_alg».proof.Proof.Gen.Kernel.Points
import proofs.«175655_j44272522887304_1_alg».proof.Proof.Gen.Kernel.Frame
import proofs.«175655_j44272522887304_1_alg».proof.Proof.Gen.KernelIdeal
import proofs.«175655_j44272522887304_1_alg».proof.Proof.Gen.KernelIdeal.Skeleton
import proofs.«175655_j44272522887304_1_alg».proof.Proof.Gen.KernelIdeal.Launch
import proofs.«175655_j44272522887304_1_alg».proof.Proof.Gen.KernelIdeal.Points
import proofs.«175655_j44272522887304_1_alg».proof.Proof.Gen.KernelIdeal.Frame
import proofs.«175655_j44272522887304_1_alg».proof.Proof.Gen.ReferenceIdeal
import proofs.«175655_j44272522887304_1_alg».proof.Proof.Gen.Pre_finite_inputs
import proofs.«175655_j44272522887304_1_alg».proof.Proof.Gen.ReferenceIdeal.Run
import proofs.«175655_j44272522887304_1_alg».proof.Proof.KernelRun
import proofs.«175655_j44272522887304_1_alg».proof.Proof.Fold
import proofs.«175655_j44272522887304_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at `Chain.output` of the arguments:
    the device program by following its buffers through the three regions, the reference by reading its run's term
    layer by layer. -/
theorem algebraic : Cert.algebraic_KernelIdeal_ReferenceIdeal := by
  intro m ρ m' ρ' _ hagree
  refine ⟨fun c => Cert.KernelIdeal.Chain.output (m ((c.tc : Thread Cert.KernelIdeal.nD Cert.KernelIdeal.τ).loc Cert.KernelIdeal.main_arg2)) (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.result m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, -, h2, h3, h4, h5, h6, h7, h8, h9, h10, h11⟩ := hagree c
    rw [Cert.ReferenceIdeal.RefValue.res_output, h0, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
